-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x100x4 : Shape := ⟨4, ![4, 2048, 100, 4]⟩
abbrev S4x2048 : Shape := ⟨2, ![4, 2048]⟩
abbrev S4x2048x100 : Shape := ⟨3, ![4, 2048, 100]⟩
abbrev S40x5 : Shape := ⟨2, ![40, 5]⟩
abbrev S_ : Shape := ⟨0, ![]⟩

class Facts : Prop where
  bcast_S_S4x2048x100x4 : S_.BroadcastsInDim S4x2048x100x4 (![] : Fin 0 → Fin S4x2048x100x4.rank)
  reducesTo_S4x2048x100x4_S_d0_1_2_3 : S4x2048x100x4.ReducesTo [0, 1, 2, 3] S_
  h_S_ : 0 < S_.numel
  bcast_S_S40x5 : S_.BroadcastsInDim S40x5 (![] : Fin 0 → Fin S40x5.rank)
  reducesTo_S40x5_S_d0_1 : S40x5.ReducesTo [0, 1] S_

variable [Facts]

def fn {F : FTy → Type} [FloatOps F] (main_arg0 : FVec F S4x2048x100x4 .f32) (main_arg1 : IVec S4x2048 32) (main_arg2 : IVec S4x2048x100 32) (main_arg3 : FVec F S40x5 .f32) : IVec S_ 1 :=
  let main_v0 : FVec F S4x2048x100x4 .f32 := Host.absf main_arg0
  let main_cst : FVec F S_ .f32 := constant S_ .f32 0x7F800000#32
  let main_v1 : FVec F S4x2048x100x4 .f32 := broadcastInDim S4x2048x100x4 ![] bcast_S_S4x2048x100x4 main_cst
  let main_v2 : IVec S4x2048x100x4 1 := cmpf .olt main_v0 main_v1
  let main_c : IVec S_ 1 := constantI S_ 1 1#1
  let main_v3 : IVec S_ 1 := (fun x v => Host.reduce IntOp.andi x v reducesTo_S4x2048x100x4_S_d0_1_2_3 h_S_) main_v2 main_c
  let main_v4 : FVec F S40x5 .f32 := Host.absf main_arg3
  let main_cst_0 : FVec F S_ .f32 := constant S_ .f32 0x7F800000#32
  let main_v5 : FVec F S40x5 .f32 := broadcastInDim S40x5 ![] bcast_S_S40x5 main_cst_0
  let main_v6 : IVec S40x5 1 := cmpf .olt main_v4 main_v5
  let main_c_1 : IVec S_ 1 := constantI S_ 1 1#1
  let main_v7 : IVec S_ 1 := (fun x v => Host.reduce IntOp.andi x v reducesTo_S40x5_S_d0_1 h_S_) main_v6 main_c_1
  let main_v8 : IVec S_ 1 := andi main_v3 main_v7
  main_v8
-- ==== Kernel.lean ====
abbrev S4x2048x100x4 : Shape := ⟨4, ![4, 2048, 100, 4]⟩
abbrev S4x2048 : Shape := ⟨2, ![4, 2048]⟩
abbrev S4x2048x100 : Shape := ⟨3, ![4, 2048, 100]⟩
abbrev S40x5 : Shape := ⟨2, ![40, 5]⟩
abbrev S_ : Shape := ⟨0, ![]⟩
abbrev S4x1 : Shape := ⟨2, ![4, 1]⟩
abbrev S4x2049 : Shape := ⟨2, ![4, 2049]⟩
abbrev S4x204800 : Shape := ⟨2, ![4, 204800]⟩
abbrev S4x204800x1 : Shape := ⟨3, ![4, 204800, 1]⟩
abbrev S1 : Shape := ⟨1, ![1]⟩
abbrev S1x1x1 : Shape := ⟨3, ![1, 1, 1]⟩
abbrev S4x2048x1 : Shape := ⟨3, ![4, 2048, 1]⟩
abbrev S4x2048x5 : Shape := ⟨3, ![4, 2048, 5]⟩
abbrev S4x2048x100x1 : Shape := ⟨4, ![4, 2048, 100, 1]⟩
abbrev S4x2048x100x5 : Shape := ⟨4, ![4, 2048, 100, 5]⟩
abbrev S4x2048x100x4x25 : Shape := ⟨5, ![4, 2048, 100, 4, 25]⟩
abbrev S1x32x100x4 : Shape := ⟨4, ![1, 32, 100, 4]⟩
abbrev S1x32x5 : Shape := ⟨3, ![1, 32, 5]⟩
abbrev S1x32x100x5 : Shape := ⟨4, ![1, 32, 100, 5]⟩
abbrev S1x32x100x4x25 : Shape := ⟨5, ![1, 32, 100, 4, 25]⟩
abbrev S32x100x4 : Shape := ⟨3, ![32, 100, 4]⟩
abbrev S32x5 : Shape := ⟨2, ![32, 5]⟩
abbrev S32x100x5 : Shape := ⟨3, ![32, 100, 5]⟩
abbrev S32x1 : Shape := ⟨2, ![32, 1]⟩
abbrev S32 : Shape := ⟨1, ![32]⟩
abbrev S32x1x1 : Shape := ⟨3, ![32, 1, 1]⟩
abbrev S32x100x25 : Shape := ⟨3, ![32, 100, 25]⟩
abbrev S32x100x4x1 : Shape := ⟨4, ![32, 100, 4, 1]⟩
abbrev S32x100x1x25 : Shape := ⟨4, ![32, 100, 1, 25]⟩
abbrev S32x100x4x25 : Shape := ⟨4, ![32, 100, 4, 25]⟩

abbrev nBuf : Space → Nat
  | .hbm => 50
  | .vmem => 8
  | .smem => 0
  | _ => 0

abbrev bufTy : (tb : Table) → Fin (tcTables nBuf tb) → BufTy
  | .hbm, ⟨0, _⟩ => ⟨S4x2048x100x4, .f32⟩
  | .hbm, ⟨1, _⟩ => ⟨S4x2048, .i32⟩
  | .hbm, ⟨2, _⟩ => ⟨S4x2048x100, .i32⟩
  | .hbm, ⟨3, _⟩ => ⟨S40x5, .f32⟩
  | .hbm, ⟨4, _⟩ => ⟨S_, .i32⟩
  | .hbm, ⟨5, _⟩ => ⟨S4x1, .i32⟩
  | .hbm, ⟨6, _⟩ => ⟨S4x2049, .i32⟩
  | .hbm, ⟨7, _⟩ => ⟨S4x204800, .i32⟩
  | .hbm, ⟨8, _⟩ => ⟨S_, .i32⟩
  | .hbm, ⟨9, _⟩ => ⟨S4x204800, .i32⟩
  | .hbm, ⟨10, _⟩ => ⟨S4x204800, .i1⟩
  | .hbm, ⟨11, _⟩ => ⟨S_, .i32⟩
  | .hbm, ⟨12, _⟩ => ⟨S4x204800, .i32⟩
  | .hbm, ⟨13, _⟩ => ⟨S4x204800, .i32⟩
  | .hbm, ⟨14, _⟩ => ⟨S4x204800, .i32⟩
  | .hbm, ⟨15, _⟩ => ⟨S4x204800x1, .i32⟩
  | .hbm, ⟨16, _⟩ => ⟨S1, .i32⟩
  | .hbm, ⟨17, _⟩ => ⟨S_, .i32⟩
  | .hbm, ⟨18, _⟩ => ⟨S4x204800x1, .i32⟩
  | .hbm, ⟨19, _⟩ => ⟨S4x204800x1, .i1⟩
  | .hbm, ⟨20, _⟩ => ⟨S1x1x1, .i32⟩
  | .hbm, ⟨21, _⟩ => ⟨S4x204800x1, .i32⟩
  | .hbm, ⟨22, _⟩ => ⟨S4x204800x1, .i1⟩
  | .hbm, ⟨23, _⟩ => ⟨S4x204800x1, .i1⟩
  | .hbm, ⟨24, _⟩ => ⟨S_, .i1⟩
  | .hbm, ⟨25, _⟩ => ⟨S4x204800, .i1⟩
  | .hbm, ⟨26, _⟩ => ⟨S4x204800, .i32⟩
  | .hbm, ⟨27, _⟩ => ⟨S_, .i32⟩
  | .hbm, ⟨28, _⟩ => ⟨S4x204800, .i32⟩
  | .hbm, ⟨29, _⟩ => ⟨S4x204800, .i32⟩
  | .hbm, ⟨30, _⟩ => ⟨S4x2048x100, .i32⟩
  | .hbm, ⟨31, _⟩ => ⟨S_, .i32⟩
  | .hbm, ⟨32, _⟩ => ⟨S4x2048, .i32⟩
  | .hbm, ⟨33, _⟩ => ⟨S4x2048, .i1⟩
  | .hbm, ⟨34, _⟩ => ⟨S_, .i32⟩
  | .hbm, ⟨35, _⟩ => ⟨S4x2048, .i32⟩
  | .hbm, ⟨36, _⟩ => ⟨S4x2048, .i32⟩
  | .hbm, ⟨37, _⟩ => ⟨S4x2048, .i32⟩
  | .hbm, ⟨38, _⟩ => ⟨S4x2048x1, .i32⟩
  | .hbm, ⟨39, _⟩ => ⟨S4x2048x5, .f32⟩
  | .hbm, ⟨40, _⟩ => ⟨S_, .i32⟩
  | .hbm, ⟨41, _⟩ => ⟨S4x2048x100, .i32⟩
  | .hbm, ⟨42, _⟩ => ⟨S4x2048x100, .i1⟩
  | .hbm, ⟨43, _⟩ => ⟨S_, .i32⟩
  | .hbm, ⟨44, _⟩ => ⟨S4x2048x100, .i32⟩
  | .hbm, ⟨45, _⟩ => ⟨S4x2048x100, .i32⟩
  | .hbm, ⟨46, _⟩ => ⟨S4x2048x100, .i32⟩
  | .hbm, ⟨47, _⟩ => ⟨S4x2048x100x1, .i32⟩
  | .hbm, ⟨48, _⟩ => ⟨S4x2048x100x5, .f32⟩
  | .hbm, ⟨49, _⟩ => ⟨S4x2048x100x4x25, .f32⟩
  | .local _ .vmem, ⟨0, _⟩ => ⟨S1x32x100x4, .f32⟩
  | .local _ .vmem, ⟨1, _⟩ => ⟨S1x32x100x4, .f32⟩
  | .local _ .vmem, ⟨2, _⟩ => ⟨S1x32x5, .f32⟩
  | .local _ .vmem, ⟨3, _⟩ => ⟨S1x32x5, .f32⟩
  | .local _ .vmem, ⟨4, _⟩ => ⟨S1x32x100x5, .f32⟩
  | .local _ .vmem, ⟨5, _⟩ => ⟨S1x32x100x5, .f32⟩
  | .local _ .vmem, ⟨6, _⟩ => ⟨S1x32x100x4x25, .f32⟩
  | .local _ .vmem, ⟨7, _⟩ => ⟨S1x32x100x4x25, .f32⟩
  | _, _ => ⟨S4x2048x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_c_4 : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_c_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x100x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x100x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x100x4x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x1 : S_.BroadcastsInDim S4x1 (![] : Fin 0 → Fin S4x1.rank)
  concatenates_S4x1_S4x2048_S4x2049_d1 : Shape.Concatenates [S4x1, S4x2048] S4x2049 1
  shapeCasts_S4x2048x100_S4x204800 : S4x2048x100.ShapeCasts S4x204800
  bcast_S_S4x204800 : S_.BroadcastsInDim S4x204800 (![] : Fin 0 → Fin S4x204800.rank)
  shapeCasts_S4x204800_S4x204800x1 : S4x204800.ShapeCasts S4x204800x1
  bcast_S_S4x204800x1 : S_.BroadcastsInDim S4x204800x1 (![] : Fin 0 → Fin S4x204800x1.rank)
  bcast_S1_S1x1x1_2 : S1.BroadcastsInDim S1x1x1 (![2] : Fin 1 → Fin S1x1x1.rank)
  bcast_S1x1x1_S4x204800x1_0_1_2 : S1x1x1.BroadcastsInDim S4x204800x1 (![0, 1, 2] : Fin 3 → Fin S4x204800x1.rank)
  reducesTo_S4x204800x1_S4x204800_d2 : S4x204800x1.ReducesTo [2] S4x204800
  h_S_ : 0 < S_.numel
  shapeCasts_S4x204800_S4x2048x100 : S4x204800.ShapeCasts S4x2048x100
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x100 : S_.BroadcastsInDim S4x2048x100 (![] : Fin 0 → Fin S4x2048x100.rank)
  bcast_S4x2048x100_S4x2048x100x1_0_1_2 : S4x2048x100.BroadcastsInDim S4x2048x100x1 (![0, 1, 2] : Fin 3 → Fin S4x2048x100x1.rank)
  inb_S1x32x100x4_S1x32x100x4_0_0_0_0 : ∀ a, (![0, 0, 0, 0] : Fin 4 → Nat) a + S1x32x100x4.size a ≤ S1x32x100x4.size a
  h_S1x32x100x4 : 0 < S1x32x100x4.numel
  shapeCasts_S1x32x100x4_S32x100x4 : S1x32x100x4.ShapeCasts S32x100x4
  inb_S1x32x5_S1x32x5_0_0_0 : ∀ a, (![0, 0, 0] : Fin 3 → Nat) a + S1x32x5.size a ≤ S1x32x5.size a
  h_S1x32x5 : 0 < S1x32x5.numel
  shapeCasts_S1x32x5_S32x5 : S1x32x5.ShapeCasts S32x5
  inb_S1x32x100x5_S1x32x100x5_0_0_0_0 : ∀ a, (![0, 0, 0, 0] : Fin 4 → Nat) a + S1x32x100x5.size a ≤ S1x32x100x5.size a
  h_S1x32x100x5 : 0 < S1x32x100x5.numel
  shapeCasts_S1x32x100x5_S32x100x5 : S1x32x100x5.ShapeCasts S32x100x5
  slices_S32x5_o0_0_S32x1 : S32x5.Slices ![0, 0] S32x1
  shapeCasts_S32x1_S32 : S32x1.ShapeCasts S32
  shapeCasts_S32_S32x1x1 : S32.ShapeCasts S32x1x1
  broadcasts_S32x1x1_S32x100x5 : S32x1x1.Broadcasts S32x100x5
  slices_S32x5_o0_1_S32x1 : S32x5.Slices ![0, 1] S32x1
  slices_S32x5_o0_2_S32x1 : S32x5.Slices ![0, 2] S32x1
  slices_S32x5_o0_3_S32x1 : S32x5.Slices ![0, 3] S32x1
  slices_S32x5_o0_4_S32x1 : S32x5.Slices ![0, 4] S32x1
  concatenates_S32x100x5_S32x100x5_S32x100x5_S32x100x5_S32x100x5_S32x100x25_d2 : Shape.Concatenates [S32x100x5, S32x100x5, S32x100x5, S32x100x5, S32x100x5] S32x100x25 2
  shapeCasts_S32x100x4_S32x100x4x1 : S32x100x4.ShapeCasts S32x100x4x1
  shapeCasts_S32x100x25_S32x100x1x25 : S32x100x25.ShapeCasts S32x100x1x25
  broadcasts_S32x100x4x1_S32x100x4x25 : S32x100x4x1.Broadcasts S32x100x4x25
  broadcasts_S32x100x1x25_S32x100x4x25 : S32x100x1x25.Broadcasts S32x100x4x25
  inb_S1x32x100x4x25_S1x32x100x4x25_0_0_0_0_0 : ∀ a, (![0, 0, 0, 0, 0] : Fin 5 → Nat) a + S1x32x100x4x25.size a ≤ S1x32x100x4x25.size a
  h_S1x32x100x4x25 : 0 < S1x32x100x4x25.numel
  shapeCasts_S1x32x100x4x25_S32x100x4x25 : S1x32x100x4x25.ShapeCasts S32x100x4x25
  shapeCasts_S32x100x4x25_S1x32x100x4x25 : S32x100x4x25.ShapeCasts S1x32x100x4x25
  gather_S4x2049_S4x204800x1_S4x204800_n_1_0_0_1_2_11_wf : GatherDims.WF S4x2049 S4x204800x1 S4x204800 [] [1] [0] [1] [0] 2 ![1, 1]
  gather_S40x5_S4x2048x1_S4x2048x5_2_0_n_n_0_2_15_wf : GatherDims.WF S40x5 S4x2048x1 S4x2048x5 [2] [0] [] [0] [] 2 ![1, 5]
  gather_S40x5_S4x2048x100x1_S4x2048x100x5_3_0_n_n_0_3_15_wf : GatherDims.WF S40x5 S4x2048x100x1 S4x2048x100x5 [3] [0] [] [0] [] 3 ![1, 5]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x100x4.size a ≤ S4x2048x100x4.size a
  hwx0_0 : ∀ i : grid0.Coords, EltTy.bits .f32 = 32 ∨ (Rect.block (s := S4x2048x100x4) S1x32x100x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x5.size a ≤ S4x2048x5.size a
  hwx0_1 : ∀ i : grid0.Coords, EltTy.bits .f32 = 32 ∨ (Rect.block (s := S4x2048x5) S1x32x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x100x5.size a ≤ S4x2048x100x5.size a
  hwx0_2 : ∀ i : grid0.Coords, EltTy.bits .f32 = 32 ∨ (Rect.block (s := S4x2048x100x5) S1x32x100x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x100x4x25.size a ≤ S4x2048x100x4x25.size a
  hwx0_3 : ∀ i : grid0.Coords, EltTy.bits .f32 = 32 ∨ (Rect.block (s := S4x2048x100x4x25) S1x32x100x4x25.size (cc0_transform_3 i) (hinb0_3 i)).WholeWords (EltTy.packing .f32)

variable [Facts₀]

def gather_S4x2049_S4x204800x1_S4x204800_n_1_0_0_1_2_11 : GatherDims S4x2049 S4x204800x1 S4x204800 where
  offsetDims := []
  collapsedSliceDims := [1]
  operandBatchingDims := [0]
  startIndicesBatchingDims := [0]
  startIndexMap := [1]
  indexVectorDim := 2
  sliceSizes := ![1, 1]
  wf := gather_S4x2049_S4x204800x1_S4x204800_n_1_0_0_1_2_11_wf
def gather_S40x5_S4x2048x1_S4x2048x5_2_0_n_n_0_2_15 : GatherDims S40x5 S4x2048x1 S4x2048x5 where
  offsetDims := [2]
  collapsedSliceDims := [0]
  operandBatchingDims := []
  startIndicesBatchingDims := []
  startIndexMap := [0]
  indexVectorDim := 2
  sliceSizes := ![1, 5]
  wf := gather_S40x5_S4x2048x1_S4x2048x5_2_0_n_n_0_2_15_wf
def gather_S40x5_S4x2048x100x1_S4x2048x100x5_3_0_n_n_0_3_15 : GatherDims S40x5 S4x2048x100x1 S4x2048x100x5 where
  offsetDims := [3]
  collapsedSliceDims := [0]
  operandBatchingDims := []
  startIndicesBatchingDims := []
  startIndexMap := [0]
  indexVectorDim := 3
  sliceSizes := ![1, 5]
  wf := gather_S40x5_S4x2048x100x1_S4x2048x100x5_3_0_n_n_0_3_15_wf

abbrev win0_0 : Pipeline.Window sig grid0 :=
  Pipeline.Window.ofSpec (Memref.whole main_arg0) S1x32x100x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x32x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x32x100x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x32x100x4x25.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x100x4 : Shape := ⟨4, ![4, 2048, 100, 4]⟩
abbrev S4x2048 : Shape := ⟨2, ![4, 2048]⟩
abbrev S4x2048x100 : Shape := ⟨3, ![4, 2048, 100]⟩
abbrev S40x5 : Shape := ⟨2, ![40, 5]⟩
abbrev S_ : Shape := ⟨0, ![]⟩
abbrev S4x1 : Shape := ⟨2, ![4, 1]⟩
abbrev S4x2049 : Shape := ⟨2, ![4, 2049]⟩
abbrev S4x204800 : Shape := ⟨2, ![4, 204800]⟩
abbrev S4x204800x1 : Shape := ⟨3, ![4, 204800, 1]⟩
abbrev S1 : Shape := ⟨1, ![1]⟩
abbrev S1x1x1 : Shape := ⟨3, ![1, 1, 1]⟩
abbrev S4x2048x1 : Shape := ⟨3, ![4, 2048, 1]⟩
abbrev S4x2048x5 : Shape := ⟨3, ![4, 2048, 5]⟩
abbrev S4x2048x100x1 : Shape := ⟨4, ![4, 2048, 100, 1]⟩
abbrev S4x2048x100x5 : Shape := ⟨4, ![4, 2048, 100, 5]⟩
abbrev S4x2048x1x5x1 : Shape := ⟨5, ![4, 2048, 1, 5, 1]⟩
abbrev S4x2048x100x1x5 : Shape := ⟨5, ![4, 2048, 100, 1, 5]⟩
abbrev S4x2048x100x5x5 : Shape := ⟨5, ![4, 2048, 100, 5, 5]⟩
abbrev S4x2048x100x25 : Shape := ⟨4, ![4, 2048, 100, 25]⟩
abbrev S4x2048x100x4x1 : Shape := ⟨5, ![4, 2048, 100, 4, 1]⟩
abbrev S4x2048x100x1x25 : Shape := ⟨5, ![4, 2048, 100, 1, 25]⟩
abbrev S4x2048x100x4x25 : Shape := ⟨5, ![4, 2048, 100, 4, 25]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x100x4, .f32⟩
  | .hbm, ⟨1, _⟩ => ⟨S4x2048, .i32⟩
  | .hbm, ⟨2, _⟩ => ⟨S4x2048x100, .i32⟩
  | .hbm, ⟨3, _⟩ => ⟨S40x5, .f32⟩
  | .hbm, ⟨4, _⟩ => ⟨S_, .i32⟩
  | .hbm, ⟨5, _⟩ => ⟨S4x1, .i32⟩
  | .hbm, ⟨6, _⟩ => ⟨S4x2049, .i32⟩
  | .hbm, ⟨7, _⟩ => ⟨S4x204800, .i32⟩
  | .hbm, ⟨8, _⟩ => ⟨S_, .i32⟩
  | .hbm, ⟨9, _⟩ => ⟨S4x204800, .i32⟩
  | .hbm, ⟨10, _⟩ => ⟨S4x204800, .i1⟩
  | .hbm, ⟨11, _⟩ => ⟨S_, .i32⟩
  | .hbm, ⟨12, _⟩ => ⟨S4x204800, .i32⟩
  | .hbm, ⟨13, _⟩ => ⟨S4x204800, .i32⟩
  | .hbm, ⟨14, _⟩ => ⟨S4x204800, .i32⟩
  | .hbm, ⟨15, _⟩ => ⟨S4x204800x1, .i32⟩
  | .hbm, ⟨16, _⟩ => ⟨S1, .i32⟩
  | .hbm, ⟨17, _⟩ => ⟨S_, .i32⟩
  | .hbm, ⟨18, _⟩ => ⟨S4x204800x1, .i32⟩
  | .hbm, ⟨19, _⟩ => ⟨S4x204800x1, .i1⟩
  | .hbm, ⟨20, _⟩ => ⟨S1x1x1, .i32⟩
  | .hbm, ⟨21, _⟩ => ⟨S4x204800x1, .i32⟩
  | .hbm, ⟨22, _⟩ => ⟨S4x204800x1, .i1⟩
  | .hbm, ⟨23, _⟩ => ⟨S4x204800x1, .i1⟩
  | .hbm, ⟨24, _⟩ => ⟨S_, .i1⟩
  | .hbm, ⟨25, _⟩ => ⟨S4x204800, .i1⟩
  | .hbm, ⟨26, _⟩ => ⟨S4x204800, .i32⟩
  | .hbm, ⟨27, _⟩ => ⟨S_, .i32⟩
  | .hbm, ⟨28, _⟩ => ⟨S4x204800, .i32⟩
  | .hbm, ⟨29, _⟩ => ⟨S4x204800, .i32⟩
  | .hbm, ⟨30, _⟩ => ⟨S4x2048x100, .i32⟩
  | .hbm, ⟨31, _⟩ => ⟨S_, .i32⟩
  | .hbm, ⟨32, _⟩ => ⟨S4x2048, .i32⟩
  | .hbm, ⟨33, _⟩ => ⟨S4x2048, .i1⟩
  | .hbm, ⟨34, _⟩ => ⟨S_, .i32⟩
  | .hbm, ⟨35, _⟩ => ⟨S4x2048, .i32⟩
  | .hbm, ⟨36, _⟩ => ⟨S4x2048, .i32⟩
  | .hbm, ⟨37, _⟩ => ⟨S4x2048, .i32⟩
  | .hbm, ⟨38, _⟩ => ⟨S4x2048x1, .i32⟩
  | .hbm, ⟨39, _⟩ => ⟨S4x2048x5, .f32⟩
  | .hbm, ⟨40, _⟩ => ⟨S_, .i32⟩
  | .hbm, ⟨41, _⟩ => ⟨S4x2048x100, .i32⟩
  | .hbm, ⟨42, _⟩ => ⟨S4x2048x100, .i1⟩
  | .hbm, ⟨43, _⟩ => ⟨S_, .i32⟩
  | .hbm, ⟨44, _⟩ => ⟨S4x2048x100, .i32⟩
  | .hbm, ⟨45, _⟩ => ⟨S4x2048x100, .i32⟩
  | .hbm, ⟨46, _⟩ => ⟨S4x2048x100, .i32⟩
  | .hbm, ⟨47, _⟩ => ⟨S4x2048x100x1, .i32⟩
  | .hbm, ⟨48, _⟩ => ⟨S4x2048x100x5, .f32⟩
  | .hbm, ⟨49, _⟩ => ⟨S4x2048x1x5x1, .f32⟩
  | .hbm, ⟨50, _⟩ => ⟨S4x2048x100x1x5, .f32⟩
  | .hbm, ⟨51, _⟩ => ⟨S4x2048x100x5x5, .f32⟩
  | .hbm, ⟨52, _⟩ => ⟨S4x2048x100x5x5, .f32⟩
  | .hbm, ⟨53, _⟩ => ⟨S4x2048x100x5x5, .f32⟩
  | .hbm, ⟨54, _⟩ => ⟨S4x2048x100x25, .f32⟩
  | .hbm, ⟨55, _⟩ => ⟨S4x2048x100x4x1, .f32⟩
  | .hbm, ⟨56, _⟩ => ⟨S4x2048x100x1x25, .f32⟩
  | .hbm, ⟨57, _⟩ => ⟨S4x2048x100x4x25, .f32⟩
  | .hbm, ⟨58, _⟩ => ⟨S4x2048x100x4x25, .f32⟩
  | .hbm, ⟨59, _⟩ => ⟨S4x2048x100x4x25, .f32⟩
  | _, _ => ⟨S4x2048x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_c_4 : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_c_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩

abbrev nD : Nat := 1
abbrev τ : Topo := Topo.v7x

variable {F : FTy → Type} [FloatOps F]

class Facts₀ : Prop where
  bcast_S_S4x1 : S_.BroadcastsInDim S4x1 (![] : Fin 0 → Fin S4x1.rank)
  concatenates_S4x1_S4x2048_S4x2049_d1 : Shape.Concatenates [S4x1, S4x2048] S4x2049 1
  shapeCasts_S4x2048x100_S4x204800 : S4x2048x100.ShapeCasts S4x204800
  bcast_S_S4x204800 : S_.BroadcastsInDim S4x204800 (![] : Fin 0 → Fin S4x204800.rank)
  shapeCasts_S4x204800_S4x204800x1 : S4x204800.ShapeCasts S4x204800x1
  bcast_S_S4x204800x1 : S_.BroadcastsInDim S4x204800x1 (![] : Fin 0 → Fin S4x204800x1.rank)
  bcast_S1_S1x1x1_2 : S1.BroadcastsInDim S1x1x1 (![2] : Fin 1 → Fin S1x1x1.rank)
  bcast_S1x1x1_S4x204800x1_0_1_2 : S1x1x1.BroadcastsInDim S4x204800x1 (![0, 1, 2] : Fin 3 → Fin S4x204800x1.rank)
  reducesTo_S4x204800x1_S4x204800_d2 : S4x204800x1.ReducesTo [2] S4x204800
  h_S_ : 0 < S_.numel
  shapeCasts_S4x204800_S4x2048x100 : S4x204800.ShapeCasts S4x2048x100
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x100 : S_.BroadcastsInDim S4x2048x100 (![] : Fin 0 → Fin S4x2048x100.rank)
  bcast_S4x2048x100_S4x2048x100x1_0_1_2 : S4x2048x100.BroadcastsInDim S4x2048x100x1 (![0, 1, 2] : Fin 3 → Fin S4x2048x100x1.rank)
  bcast_S4x2048x5_S4x2048x1x5x1_0_1_3 : S4x2048x5.BroadcastsInDim S4x2048x1x5x1 (![0, 1, 3] : Fin 3 → Fin S4x2048x1x5x1.rank)
  bcast_S4x2048x100x5_S4x2048x100x1x5_0_1_2_4 : S4x2048x100x5.BroadcastsInDim S4x2048x100x1x5 (![0, 1, 2, 4] : Fin 4 → Fin S4x2048x100x1x5.rank)
  bcast_S4x2048x1x5x1_S4x2048x100x5x5_0_1_2_3_4 : S4x2048x1x5x1.BroadcastsInDim S4x2048x100x5x5 (![0, 1, 2, 3, 4] : Fin 5 → Fin S4x2048x100x5x5.rank)
  bcast_S4x2048x100x1x5_S4x2048x100x5x5_0_1_2_3_4 : S4x2048x100x1x5.BroadcastsInDim S4x2048x100x5x5 (![0, 1, 2, 3, 4] : Fin 5 → Fin S4x2048x100x5x5.rank)
  shapeCasts_S4x2048x100x5x5_S4x2048x100x25 : S4x2048x100x5x5.ShapeCasts S4x2048x100x25
  bcast_S4x2048x100x4_S4x2048x100x4x1_0_1_2_3 : S4x2048x100x4.BroadcastsInDim S4x2048x100x4x1 (![0, 1, 2, 3] : Fin 4 → Fin S4x2048x100x4x1.rank)
  bcast_S4x2048x100x25_S4x2048x100x1x25_0_1_2_4 : S4x2048x100x25.BroadcastsInDim S4x2048x100x1x25 (![0, 1, 2, 4] : Fin 4 → Fin S4x2048x100x1x25.rank)
  bcast_S4x2048x100x4x1_S4x2048x100x4x25_0_1_2_3_4 : S4x2048x100x4x1.BroadcastsInDim S4x2048x100x4x25 (![0, 1, 2, 3, 4] : Fin 5 → Fin S4x2048x100x4x25.rank)
  bcast_S4x2048x100x1x25_S4x2048x100x4x25_0_1_2_3_4 : S4x2048x100x1x25.BroadcastsInDim S4x2048x100x4x25 (![0, 1, 2, 3, 4] : Fin 5 → Fin S4x2048x100x4x25.rank)
  gather_S4x2049_S4x204800x1_S4x204800_n_1_0_0_1_2_11_wf : GatherDims.WF S4x2049 S4x204800x1 S4x204800 [] [1] [0] [1] [0] 2 ![1, 1]
  gather_S40x5_S4x2048x1_S4x2048x5_2_0_n_n_0_2_15_wf : GatherDims.WF S40x5 S4x2048x1 S4x2048x5 [2] [0] [] [0] [] 2 ![1, 5]
  gather_S40x5_S4x2048x100x1_S4x2048x100x5_3_0_n_n_0_3_15_wf : GatherDims.WF S40x5 S4x2048x100x1 S4x2048x100x5 [3] [0] [] [0] [] 3 ![1, 5]

variable [Facts₀]

def gather_S4x2049_S4x204800x1_S4x204800_n_1_0_0_1_2_11 : GatherDims S4x2049 S4x204800x1 S4x204800 where
  offsetDims := []
  collapsedSliceDims := [1]
  operandBatchingDims := [0]
  startIndicesBatchingDims := [0]
  startIndexMap := [1]
  indexVectorDim := 2
  sliceSizes := ![1, 1]
  wf := gather_S4x2049_S4x204800x1_S4x204800_n_1_0_0_1_2_11_wf
def gather_S40x5_S4x2048x1_S4x2048x5_2_0_n_n_0_2_15 : GatherDims S40x5 S4x2048x1 S4x2048x5 where
  offsetDims := [2]
  collapsedSliceDims := [0]
  operandBatchingDims := []
  startIndicesBatchingDims := []
  startIndexMap := [0]
  indexVectorDim := 2
  sliceSizes := ![1, 5]
  wf := gather_S40x5_S4x2048x1_S4x2048x5_2_0_n_n_0_2_15_wf
def gather_S40x5_S4x2048x100x1_S4x2048x100x5_3_0_n_n_0_3_15 : GatherDims S40x5 S4x2048x100x1 S4x2048x100x5 where
  offsetDims := [3]
  collapsedSliceDims := [0]
  operandBatchingDims := []
  startIndicesBatchingDims := []
  startIndexMap := [0]
  indexVectorDim := 3
  sliceSizes := ![1, 5]
  wf := gather_S40x5_S4x2048x100x1_S4x2048x100x5_3_0_n_n_0_3_15_wf

class Facts : Prop extends Facts₀ where

variable [Facts]
-- ==== Proof.Spec.lean ====
/-
  What both programs compute, as ONE function of three arrays.

  With `x` of shape [4, 2048, 100, 4], a table of row embeddings `ii` of shape [4, 2048, 5] and a table of
  neighbour embeddings `jj` of shape [4, 2048, 100, 5], the result of shape [4, 2048, 100, 4, 25] is

      out (b, n, p, k, e) = x (b, n, p, k) * (ii (b, n, e / 5) * jj (b, n, p, e % 5)) :

  the last axis enumerates the 5 x 5 outer product of the two embedding vectors row by row (`e = 5 i + j`), and
  every entry of it scales every component `k` of `x`. The product is written in this order and grouping because
  both programs multiply in this order; no law of arithmetic is used anywhere, only where each entry is read.
-/
import proofs.«109306_j9380208575078_1_alg».proof.KernelIdeal

noncomputable section

namespace Cert.Outer

open Idealize.ShloMosaic Cert.KernelIdeal

variable {F : FTy → Type} [FloatOps F]

/-- The entry of `x` an output index reads: its first four coordinates. -/
abbrev xAt (i : S4x2048x100x4x25.Idx) : S4x2048x100x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩

/-- The entry of the row embedding it reads: batch, row, and the QUOTIENT of the last coordinate by 5. -/
abbrev iiAt (i : S4x2048x100x4x25.Idx) : S4x2048x5.Idx := fun a => match a with
  | ⟨0, _⟩ => ⟨(i 0).val, (i 0).isLt⟩
  | ⟨1, _⟩ => ⟨(i 1).val, (i 1).isLt⟩
  | ⟨2, _⟩ => ⟨(i 4).val / 5, by have h4 : (i 4).val < 25 := (i 4).isLt; show (i 4).val / 5 < 5; omega⟩

/-- The entry of the neighbour embedding it reads: batch, row, neighbour, and the REMAINDER of the last coordinate by 5. -/
abbrev jjAt (i : S4x2048x100x4x25.Idx) : S4x2048x100x5.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 4).val % 5, by show (i 4).val % 5 < 5; omega⟩

/-- `x` scaled by the flattened outer product of the two embeddings. -/
def outerProd (x : S4x2048x100x4.Idx → Elt F .f32) (ii : S4x2048x5.Idx → Elt F .f32) (jj : S4x2048x100x5.Idx → Elt F .f32) :
    S4x2048x100x4x25.Idx → Elt F .f32 :=
  fun i => FloatOps.mulf (x (xAt i)) (FloatOps.mulf (ii (iiAt i)) (jj (jjAt i)))

end Cert.Outer

end
-- ==== Proof.KernelBlock.lean ====
/-
  One block of the kernel's output, entry by entry.

  At a grid point the body loads a [1, 32, 100, 4] block `P0` of `x`, a [1, 32, 5] block `P1` of the row
  embeddings and a [1, 32, 100, 5] block `P2` of the neighbour embeddings. For each `n < 5` it takes column `n` of
  `P1`, spreads it over the neighbour and embedding axes and multiplies by `P2`; the five products are laid side by
  side on the last axis, which so has length 25 and holds, at position `e`, product number `e / 5` at its column
  `e % 5`. That array is spread over the component axis of `P0` and multiplied by it. So the block holds, at
  (0, r, p, k, e),

      P0 (0, r, p, k) * (P1 (0, r, e / 5) * P2 (0, r, p, e % 5)).

  The block as one function of the loads is already known (the concatenation chosen by `e / 5` and read at
  `e % 5`); what is read here is each of the five products at an index.
-/
import proofs.«109306_j9380208575078_1_alg».proof.Proof.Gen.KernelIdeal.Value
import Idealize.ShloMosaic.Lib.Pipeline.Value

noncomputable section

namespace Cert.KernelIdeal.Block

open Idealize.ShloMosaic Cert.KernelIdeal Cert.KernelIdeal.Gen Cert.KernelIdeal.Value

variable {F : FTy → Type} [FloatOps F]

/-- Row `r` of a [32, 100, 5] index as an index of the column shapes the body passes through. -/
abbrev col3 (j : S32x100x5.Idx) : S32x1x1.Idx := fun a => match a with
  | ⟨0, _⟩ => ⟨(j 0).val, (j 0).isLt⟩
  | ⟨1, _⟩ => ⟨0, Nat.one_pos⟩
  | ⟨2, _⟩ => ⟨0, Nat.one_pos⟩
abbrev col1 (j : S32x100x5.Idx) : S32.Idx := fun a => match a with
  | ⟨0, _⟩ => ⟨(j 0).val, (j 0).isLt⟩
abbrev col2 (j : S32x100x5.Idx) : S32x1.Idx := fun a => match a with
  | ⟨0, _⟩ => ⟨(j 0).val, (j 0).isLt⟩
  | ⟨1, _⟩ => ⟨0, Nat.one_pos⟩
/-- Entry (r, n) of the [32, 5] row-embedding block. -/
abbrev rowAt (j : S32x100x5.Idx) (n : Nat) (hn : n < 5) : S32x5.Idx := fun a => match a with
  | ⟨0, _⟩ => ⟨(j 0).val, (j 0).isLt⟩
  | ⟨1, _⟩ => ⟨n, hn⟩

/-- Where product `n` at (r, p, q) reads the row-embedding block: (0, r, n). -/
abbrev iiBlk (j : S32x100x5.Idx) (n : Fin 5) : S1x32x5.Idx := fun a => match a with
  | ⟨0, _⟩ => ⟨0, Nat.one_pos⟩
  | ⟨1, _⟩ => ⟨(j 0).val, (j 0).isLt⟩
  | ⟨2, _⟩ => ⟨n.val, n.isLt⟩

/-- Where it reads the neighbour-embedding block: (0, r, p, q). -/
abbrev jjBlk (j : S32x100x5.Idx) : S1x32x100x5.Idx := fun a => match a with
  | ⟨0, _⟩ => ⟨0, Nat.one_pos⟩
  | ⟨1, _⟩ => ⟨(j 0).val, (j 0).isLt⟩
  | ⟨2, _⟩ => ⟨(j 1).val, (j 1).isLt⟩
  | ⟨3, _⟩ => ⟨(j 2).val, (j 2).isLt⟩

/-- Dropping the leading unit axis of the neighbour-embedding block. -/
theorem neighbour_factor (P2 : Vec F S1x32x100x5 .f32) (j : S32x100x5.Idx) :
    (shapeCast S32x100x5 P2 shapeCasts_S1x32x100x5_S32x100x5) j = P2 (jjBlk j) :=
  shapeCast_apply _ _ j (jjBlk j) (by
    rw [Shape.rowMajor_val_four, Shape.rowMajor_val_three]
    show ((0 * 32 + (j 0).val) * 100 + (j 1).val) * 5 + (j 2).val = ((j 0).val * 100 + (j 1).val) * 5 + (j 2).val
    omega)

/-- Product `n` of the five, at (r, p, q): column `n` of the row embedding at row `r`, times the neighbour
    embedding at (r, p, q). -/
theorem part_apply (P0 : Vec F S1x32x100x4 .f32) (P1 : Vec F S1x32x5 .f32) (P2 : Vec F S1x32x100x5 .f32) (n : Fin 5)
    (j : S32x100x5.Idx) :
    Cat3_1 P0 P1 P2 n j = FloatOps.mulf (P1 (iiBlk j n)) (P2 (jjBlk j)) := by
  match n with
    | ⟨0, _⟩ =>
      show FloatOps.mulf ((broadcastTo S32x100x5 (shapeCast S32x1x1 (shapeCast S32 (extractStridedSlice S32x1 ![0, 0] (shapeCast S32x5 P1 shapeCasts_S1x32x5_S32x5) slices_S32x5_o0_0_S32x1) shapeCasts_S32x1_S32) shapeCasts_S32_S32x1x1) broadcasts_S32x1x1_S32x100x5) j)
          ((shapeCast S32x100x5 P2 shapeCasts_S1x32x100x5_S32x100x5) j) = _
      rw [neighbour_factor P2 j]
      refine congrArg (fun z => FloatOps.mulf z (P2 (jjBlk j))) ?_
      refine (broadcastTo_apply _ _ j (col3 j) (fun a => match a with
        | ⟨0, _⟩ => by show (j 0).val = (if (32 : Nat) = 1 then 0 else (j 0).val); rw [if_neg (by decide)]
        | ⟨1, _⟩ => by show 0 = (if (1 : Nat) = 1 then 0 else (j 1).val); rw [if_pos rfl]
        | ⟨2, _⟩ => by show 0 = (if (1 : Nat) = 1 then 0 else (j 2).val); rw [if_pos rfl])).trans ?_
      refine (shapeCast_apply _ _ (col3 j) (col1 j) (by rw [Shape.rowMajor_val_one, Shape.rowMajor_val_three]; show (j 0).val = ((j 0).val * 1 + 0) * 1 + 0; omega)).trans ?_
      refine (shapeCast_apply _ _ (col1 j) (col2 j) (by rw [Shape.rowMajor_val_two, Shape.rowMajor_val_one]; show (j 0).val * 1 + 0 = (j 0).val; omega)).trans ?_
      refine (extractStridedSlice_apply _ _ _ (col2 j) (rowAt j 0 (by decide)) (fun a => match a with
        | ⟨0, _⟩ => by show (j 0).val = 0 + (j 0).val; omega
        | ⟨1, _⟩ => by show 0 = 0 + 0; omega)).trans ?_
      exact shapeCast_apply _ _ (rowAt j 0 (by decide)) (iiBlk j ⟨0, by decide⟩) (by rw [Shape.rowMajor_val_three, Shape.rowMajor_val_two]; show (0 * 32 + (j 0).val) * 5 + 0 = (j 0).val * 5 + 0; omega)
    | ⟨1, _⟩ =>
      show FloatOps.mulf ((broadcastTo S32x100x5 (shapeCast S32x1x1 (shapeCast S32 (extractStridedSlice S32x1 ![0, 1] (shapeCast S32x5 P1 shapeCasts_S1x32x5_S32x5) slices_S32x5_o0_1_S32x1) shapeCasts_S32x1_S32) shapeCasts_S32_S32x1x1) broadcasts_S32x1x1_S32x100x5) j)
          ((shapeCast S32x100x5 P2 shapeCasts_S1x32x100x5_S32x100x5) j) = _
      rw [neighbour_factor P2 j]
      refine congrArg (fun z => FloatOps.mulf z (P2 (jjBlk j))) ?_
      refine (broadcastTo_apply _ _ j (col3 j) (fun a => match a with
        | ⟨0, _⟩ => by show (j 0).val = (if (32 : Nat) = 1 then 0 else (j 0).val); rw [if_neg (by decide)]
        | ⟨1, _⟩ => by show 0 = (if (1 : Nat) = 1 then 0 else (j 1).val); rw [if_pos rfl]
        | ⟨2, _⟩ => by show 0 = (if (1 : Nat) = 1 then 0 else (j 2).val); rw [if_pos rfl])).trans ?_
      refine (shapeCast_apply _ _ (col3 j) (col1 j) (by rw [Shape.rowMajor_val_one, Shape.rowMajor_val_three]; show (j 0).val = ((j 0).val * 1 + 0) * 1 + 0; omega)).trans ?_
      refine (shapeCast_apply _ _ (col1 j) (col2 j) (by rw [Shape.rowMajor_val_two, Shape.rowMajor_val_one]; show (j 0).val * 1 + 0 = (j 0).val; omega)).trans ?_
      refine (extractStridedSlice_apply _ _ _ (col2 j) (rowAt j 1 (by decide)) (fun a => match a with
        | ⟨0, _⟩ => by show (j 0).val = 0 + (j 0).val; omega
        | ⟨1, _⟩ => by show 1 = 1 + 0; omega)).trans ?_
      exact shapeCast_apply _ _ (rowAt j 1 (by decide)) (iiBlk j ⟨1, by decide⟩) (by rw [Shape.rowMajor_val_three, Shape.rowMajor_val_two]; show (0 * 32 + (j 0).val) * 5 + 1 = (j 0).val * 5 + 1; omega)
    | ⟨2, _⟩ =>
      show FloatOps.mulf ((broadcastTo S32x100x5 (shapeCast S32x1x1 (shapeCast S32 (extractStridedSlice S32x1 ![0, 2] (shapeCast S32x5 P1 shapeCasts_S1x32x5_S32x5) slices_S32x5_o0_2_S32x1) shapeCasts_S32x1_S32) shapeCasts_S32_S32x1x1) broadcasts_S32x1x1_S32x100x5) j)
          ((shapeCast S32x100x5 P2 shapeCasts_S1x32x100x5_S32x100x5) j) = _
      rw [neighbour_factor P2 j]
      refine congrArg (fun z => FloatOps.mulf z (P2 (jjBlk j))) ?_
      refine (broadcastTo_apply _ _ j (col3 j) (fun a => match a with
        | ⟨0, _⟩ => by show (j 0).val = (if (32 : Nat) = 1 then 0 else (j 0).val); rw [if_neg (by decide)]
        | ⟨1, _⟩ => by show 0 = (if (1 : Nat) = 1 then 0 else (j 1).val); rw [if_pos rfl]
        | ⟨2, _⟩ => by show 0 = (if (1 : Nat) = 1 then 0 else (j 2).val); rw [if_pos rfl])).trans ?_
      refine (shapeCast_apply _ _ (col3 j) (col1 j) (by rw [Shape.rowMajor_val_one, Shape.rowMajor_val_three]; show (j 0).val = ((j 0).val * 1 + 0) * 1 + 0; omega)).trans ?_
      refine (shapeCast_apply _ _ (col1 j) (col2 j) (by rw [Shape.rowMajor_val_two, Shape.rowMajor_val_one]; show (j 0).val * 1 + 0 = (j 0).val; omega)).trans ?_
      refine (extractStridedSlice_apply _ _ _ (col2 j) (rowAt j 2 (by decide)) (fun a => match a with
        | ⟨0, _⟩ => by show (j 0).val = 0 + (j 0).val; omega
        | ⟨1, _⟩ => by show 2 = 2 + 0; omega)).trans ?_
      exact shapeCast_apply _ _ (rowAt j 2 (by decide)) (iiBlk j ⟨2, by decide⟩) (by rw [Shape.rowMajor_val_three, Shape.rowMajor_val_two]; show (0 * 32 + (j 0).val) * 5 + 2 = (j 0).val * 5 + 2; omega)
    | ⟨3, _⟩ =>
      show FloatOps.mulf ((broadcastTo S32x100x5 (shapeCast S32x1x1 (shapeCast S32 (extractStridedSlice S32x1 ![0, 3] (shapeCast S32x5 P1 shapeCasts_S1x32x5_S32x5) slices_S32x5_o0_3_S32x1) shapeCasts_S32x1_S32) shapeCasts_S32_S32x1x1) broadcasts_S32x1x1_S32x100x5) j)
          ((shapeCast S32x100x5 P2 shapeCasts_S1x32x100x5_S32x100x5) j) = _
      rw [neighbour_factor P2 j]
      refine congrArg (fun z => FloatOps.mulf z (P2 (jjBlk j))) ?_
      refine (broadcastTo_apply _ _ j (col3 j) (fun a => match a with
        | ⟨0, _⟩ => by show (j 0).val = (if (32 : Nat) = 1 then 0 else (j 0).val); rw [if_neg (by decide)]
        | ⟨1, _⟩ => by show 0 = (if (1 : Nat) = 1 then 0 else (j 1).val); rw [if_pos rfl]
        | ⟨2, _⟩ => by show 0 = (if (1 : Nat) = 1 then 0 else (j 2).val); rw [if_pos rfl])).trans ?_
      refine (shapeCast_apply _ _ (col3 j) (col1 j) (by rw [Shape.rowMajor_val_one, Shape.rowMajor_val_three]; show (j 0).val = ((j 0).val * 1 + 0) * 1 + 0; omega)).trans ?_
      refine (shapeCast_apply _ _ (col1 j) (col2 j) (by rw [Shape.rowMajor_val_two, Shape.rowMajor_val_one]; show (j 0).val * 1 + 0 = (j 0).val; omega)).trans ?_
      refine (extractStridedSlice_apply _ _ _ (col2 j) (rowAt j 3 (by decide)) (fun a => match a with
        | ⟨0, _⟩ => by show (j 0).val = 0 + (j 0).val; omega
        | ⟨1, _⟩ => by show 3 = 3 + 0; omega)).trans ?_
      exact shapeCast_apply _ _ (rowAt j 3 (by decide)) (iiBlk j ⟨3, by decide⟩) (by rw [Shape.rowMajor_val_three, Shape.rowMajor_val_two]; show (0 * 32 + (j 0).val) * 5 + 3 = (j 0).val * 5 + 3; omega)
    | ⟨4, _⟩ =>
      show FloatOps.mulf ((broadcastTo S32x100x5 (shapeCast S32x1x1 (shapeCast S32 (extractStridedSlice S32x1 ![0, 4] (shapeCast S32x5 P1 shapeCasts_S1x32x5_S32x5) slices_S32x5_o0_4_S32x1) shapeCasts_S32x1_S32) shapeCasts_S32_S32x1x1) broadcasts_S32x1x1_S32x100x5) j)
          ((shapeCast S32x100x5 P2 shapeCasts_S1x32x100x5_S32x100x5) j) = _
      rw [neighbour_factor P2 j]
      refine congrArg (fun z => FloatOps.mulf z (P2 (jjBlk j))) ?_
      refine (broadcastTo_apply _ _ j (col3 j) (fun a => match a with
        | ⟨0, _⟩ => by show (j 0).val = (if (32 : Nat) = 1 then 0 else (j 0).val); rw [if_neg (by decide)]
        | ⟨1, _⟩ => by show 0 = (if (1 : Nat) = 1 then 0 else (j 1).val); rw [if_pos rfl]
        | ⟨2, _⟩ => by show 0 = (if (1 : Nat) = 1 then 0 else (j 2).val); rw [if_pos rfl])).trans ?_
      refine (shapeCast_apply _ _ (col3 j) (col1 j) (by rw [Shape.rowMajor_val_one, Shape.rowMajor_val_three]; show (j 0).val = ((j 0).val * 1 + 0) * 1 + 0; omega)).trans ?_
      refine (shapeCast_apply _ _ (col1 j) (col2 j) (by rw [Shape.rowMajor_val_two, Shape.rowMajor_val_one]; show (j 0).val * 1 + 0 = (j 0).val; omega)).trans ?_
      refine (extractStridedSlice_apply _ _ _ (col2 j) (rowAt j 4 (by decide)) (fun a => match a with
        | ⟨0, _⟩ => by show (j 0).val = 0 + (j 0).val; omega
        | ⟨1, _⟩ => by show 4 = 4 + 0; omega)).trans ?_
      exact shapeCast_apply _ _ (rowAt j 4 (by decide)) (iiBlk j ⟨4, by decide⟩) (by rw [Shape.rowMajor_val_three, Shape.rowMajor_val_two]; show (0 * 32 + (j 0).val) * 5 + 4 = (j 0).val * 5 + 4; omega)

/-- The block at an index: the component of `x` times the product selected by the last coordinate's quotient by 5,
    read at its remainder. -/
theorem block_apply (P0 : Vec F S1x32x100x4 .f32) (P1 : Vec F S1x32x5 .f32) (P2 : Vec F S1x32x100x5 .f32)
    (y : S1x32x100x4x25.Idx) :
    E3 P0 P1 P2 y
      = FloatOps.mulf (P0 (ix3_0 y)) (FloatOps.mulf (P1 (iiBlk (ix3_1 y) (csel3_1 y))) (P2 (jjBlk (ix3_1 y)))) :=
  congrArg (FloatOps.mulf (P0 (ix3_0 y))) (part_apply P0 P1 P2 (csel3_1 y) (ix3_1 y))

end Cert.KernelIdeal.Block

end
-- ==== Proof.KernelArray.lean ====
/-
  From the kernel's blocks to its whole output array.

  The grid has 4 x 64 points; point (b, s) works on batch `b` and rows 32 s … 32 s + 31. All four windows move
  together: on the batch and row axes every window's block index is the output's, and on the other axes every
  block index is 0 (the blocks span those axes whole). So the block of `x`, of the row embeddings and of the
  neighbour embeddings that a point loads are the rows of those arrays that its output block covers, and what the
  point writes back is exactly its block of the outer product of Spec.lean taken over the WHOLE arrays.
  Every output index (b, n, …) lies in the block of point (b, n / 32), so the blocks cover the array and the
  array ends holding the outer product.
-/
import proofs.«109306_j9380208575078_1_alg».proof.Proof.KernelBlock
import proofs.«109306_j9380208575078_1_alg».proof.Proof.Spec
import Idealize.ShloMosaic.Lib.Pipeline.Value

noncomputable section

namespace Cert.KernelIdeal.Whole

open Idealize.ShloMosaic Idealize.ShloMosaic.TcCoe Idealize.SL.Sem
open Idealize.ShloMosaic.Pipeline (Dat)
open Cert.KernelIdeal Cert.KernelIdeal.Gen Cert.KernelIdeal.Value Cert.KernelIdeal.Block

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The block indices of the four windows at a point, decided over the grid: the inputs follow the output on the
    batch and row axes, every other block index is 0, and the output's are the point's quotient and remainder by 64. -/
theorem index_facts : ∀ t : Fin cfg0.N,
    win0_0.index t (0 : Fin 4) = win0_3.index t (0 : Fin 5) ∧ win0_0.index t (1 : Fin 4) = win0_3.index t (1 : Fin 5)
    ∧ win0_0.index t (2 : Fin 4) = 0 ∧ win0_0.index t (3 : Fin 4) = 0
    ∧ win0_1.index t (0 : Fin 3) = win0_3.index t (0 : Fin 5) ∧ win0_1.index t (1 : Fin 3) = win0_3.index t (1 : Fin 5)
    ∧ win0_1.index t (2 : Fin 3) = 0
    ∧ win0_2.index t (0 : Fin 4) = win0_3.index t (0 : Fin 5) ∧ win0_2.index t (1 : Fin 4) = win0_3.index t (1 : Fin 5)
    ∧ win0_2.index t (2 : Fin 4) = 0 ∧ win0_2.index t (3 : Fin 4) = 0
    ∧ win0_3.index t (2 : Fin 5) = 0 ∧ win0_3.index t (3 : Fin 5) = 0 ∧ win0_3.index t (4 : Fin 5) = 0
    ∧ win0_3.index t (0 : Fin 5) = t.val / 64 ∧ win0_3.index t (1 : Fin 5) = t.val % 64 :=
  (by decide +kernel : ∀ t : Fin grid0.N, _)

/-- The outer product over the arrays as the launch finds them. -/
abbrev target (c : Dev nD) : S4x2048x100x4x25.Idx → Elt F .f32 :=
  Cert.Outer.outerProd (V m c main_arg0) (V m c main_v11) (V m c main_v18)

/-- What point `t` writes back is its block of the outer product of the whole arrays. -/
theorem flushed_eq (c : Dev nD) (t : Fin cfg0.N) :
    (dats m 0 c).flushed 3 t = ((cfg0.win 3).blk t).view.read (Elt F) (target m c) := by
  rw [flushed3]
  unfold out0_3
  simp only [View.ld_unit_zero (S := S1x32x100x4) zeros4, View.ld_unit_zero (S := S1x32x5) zeros3,
    View.ld_unit_zero (S := S1x32x100x5) zeros4]
  obtain ⟨a00, a01, a02, a03, a10, a11, a12, a20, a21, a22, a23, o2, o3, o4, -, -⟩ := index_facts t
  funext y
  show View.canon [⟨r0_3, k0_pay1 (iblk m c 0 t) (iblk m c 1 t) (iblk m c 2 t)⟩] y
    = target m c (((cfg0.win 3).blk t).view.emb y)
  refine (canon3_eq (iblk m c 0 t) (iblk m c 1 t) (iblk m c 2 t) y).trans ?_
  refine (block_apply (iblk m c 0 t) (iblk m c 1 t) (iblk m c 2 t) y).trans ?_
  have hy0 : (y 0).val < 1 := (y 0).isLt
  have hy1 : (y 1).val < 32 := (y 1).isLt
  have hy2 : (y 2).val < 100 := (y 2).isLt
  have hy3 : (y 3).val < 4 := (y 3).isLt
  have hy4 : (y 4).val < 25 := (y 4).isLt
  have hx : ((cfg0.win 0).blk t).view.emb (ix3_0 y) = Cert.Outer.xAt (((cfg0.win 3).blk t).view.emb y) := by
    funext a; apply Fin.ext
    match a with
    | ⟨0, _⟩ => show win0_0.index t (0 : Fin 4) * 1 + 1 * 0 = win0_3.index t (0 : Fin 5) * 1 + 1 * (y 0).val; omega
    | ⟨1, _⟩ => show win0_0.index t (1 : Fin 4) * 32 + 1 * (y 1).val = win0_3.index t (1 : Fin 5) * 32 + 1 * (y 1).val; omega
    | ⟨2, _⟩ => show win0_0.index t (2 : Fin 4) * 100 + 1 * (y 2).val = win0_3.index t (2 : Fin 5) * 100 + 1 * (y 2).val; omega
    | ⟨3, _⟩ => show win0_0.index t (3 : Fin 4) * 4 + 1 * (y 3).val = win0_3.index t (3 : Fin 5) * 4 + 1 * (y 3).val; omega
  have hi : ((cfg0.win 1).blk t).view.emb (iiBlk (ix3_1 y) (csel3_1 y)) = Cert.Outer.iiAt (((cfg0.win 3).blk t).view.emb y) := by
    funext a; apply Fin.ext
    match a with
    | ⟨0, _⟩ => show win0_1.index t (0 : Fin 3) * 1 + 1 * 0 = win0_3.index t (0 : Fin 5) * 1 + 1 * (y 0).val; omega
    | ⟨1, _⟩ => show win0_1.index t (1 : Fin 3) * 32 + 1 * (y 1).val = win0_3.index t (1 : Fin 5) * 32 + 1 * (y 1).val; omega
    | ⟨2, _⟩ => show win0_1.index t (2 : Fin 3) * 5 + 1 * ((y 4).val / 5) = (win0_3.index t (4 : Fin 5) * 25 + 1 * (y 4).val) / 5; omega
  have hj : ((cfg0.win 2).blk t).view.emb (jjBlk (ix3_1 y)) = Cert.Outer.jjAt (((cfg0.win 3).blk t).view.emb y) := by
    funext a; apply Fin.ext
    match a with
    | ⟨0, _⟩ => show win0_2.index t (0 : Fin 4) * 1 + 1 * 0 = win0_3.index t (0 : Fin 5) * 1 + 1 * (y 0).val; omega
    | ⟨1, _⟩ => show win0_2.index t (1 : Fin 4) * 32 + 1 * (y 1).val = win0_3.index t (1 : Fin 5) * 32 + 1 * (y 1).val; omega
    | ⟨2, _⟩ => show win0_2.index t (2 : Fin 4) * 100 + 1 * (y 2).val = win0_3.index t (2 : Fin 5) * 100 + 1 * (y 2).val; omega
    | ⟨3, _⟩ => show win0_2.index t (3 : Fin 4) * 5 + 1 * ((y 4).val % 5) = (win0_3.index t (4 : Fin 5) * 25 + 1 * (y 4).val) % 5; omega
  show FloatOps.mulf (V m c main_arg0 (((cfg0.win 0).blk t).view.emb (ix3_0 y)))
      (FloatOps.mulf (V m c main_v11 (((cfg0.win 1).blk t).view.emb (iiBlk (ix3_1 y) (csel3_1 y))))
        (V m c main_v18 (((cfg0.win 2).blk t).view.emb (jjBlk (ix3_1 y)))))
    = FloatOps.mulf (V m c main_arg0 (Cert.Outer.xAt (((cfg0.win 3).blk t).view.emb y)))
      (FloatOps.mulf (V m c main_v11 (Cert.Outer.iiAt (((cfg0.win 3).blk t).view.emb y)))
        (V m c main_v18 (Cert.Outer.jjAt (((cfg0.win 3).blk t).view.emb y))))
  rw [hx, hi, hj]

/-- An index of the output array is in point `t`'s block iff each coordinate is in the block's range on its axis. -/
theorem mem_block (t : Fin cfg0.N) (i : S4x2048x100x4x25.Idx) :
    i ∈ ((cfg0.win 3).blk t).view.set ↔ ∀ a : Fin 5, win0_3.index t a * S1x32x100x4x25.size a ≤ (i a).val
      ∧ (i a).val < win0_3.index t a * S1x32x100x4x25.size a + S1x32x100x4x25.size a := by
  show i ∈ ((View.whole main_v19).slice (win0_3.rect t)).set ↔ _
  rw [View.set_slice_whole, Rect.mem_set_unit]
  exact Iff.rfl

/-- Every output index is in some point's block: (b, n, …) in that of point 64 b + n / 32. -/
theorem cover (i : S4x2048x100x4x25.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 100 := (i 2).isLt
  have h3 : (i 3).val < 4 := (i 3).isLt
  have h4 : (i 4).val < 25 := (i 4).isLt
  have hN : cfg0.N = 256 := N_0
  have hlt : (i 0).val * 64 + (i 1).val / 32 < cfg0.N := by rw [hN]; omega
  refine ⟨⟨(i 0).val * 64 + (i 1).val / 32, hlt⟩, flush0_3 _, ?_⟩
  rw [mem_block]
  obtain ⟨-, -, -, -, -, -, -, -, -, -, -, o2, o3, o4, o0, o1⟩ := index_facts ⟨(i 0).val * 64 + (i 1).val / 32, hlt⟩
  have o0' : win0_3.index ⟨(i 0).val * 64 + (i 1).val / 32, hlt⟩ (0 : Fin 5) = ((i 0).val * 64 + (i 1).val / 32) / 64 := o0
  have o1' : win0_3.index ⟨(i 0).val * 64 + (i 1).val / 32, hlt⟩ (1 : Fin 5) = ((i 0).val * 64 + (i 1).val / 32) % 64 := o1
  intro a
  match a with
  | ⟨0, _⟩ =>
    show win0_3.index ⟨(i 0).val * 64 + (i 1).val / 32, hlt⟩ (0 : Fin 5) * 1 ≤ (i 0).val
      ∧ (i 0).val < win0_3.index ⟨(i 0).val * 64 + (i 1).val / 32, hlt⟩ (0 : Fin 5) * 1 + 1
    omega
  | ⟨1, _⟩ =>
    show win0_3.index ⟨(i 0).val * 64 + (i 1).val / 32, hlt⟩ (1 : Fin 5) * 32 ≤ (i 1).val
      ∧ (i 1).val < win0_3.index ⟨(i 0).val * 64 + (i 1).val / 32, hlt⟩ (1 : Fin 5) * 32 + 32
    omega
  | ⟨2, _⟩ =>
    show win0_3.index ⟨(i 0).val * 64 + (i 1).val / 32, hlt⟩ (2 : Fin 5) * 100 ≤ (i 2).val
      ∧ (i 2).val < win0_3.index ⟨(i 0).val * 64 + (i 1).val / 32, hlt⟩ (2 : Fin 5) * 100 + 100
    omega
  | ⟨3, _⟩ =>
    show win0_3.index ⟨(i 0).val * 64 + (i 1).val / 32, hlt⟩ (3 : Fin 5) * 4 ≤ (i 3).val
      ∧ (i 3).val < win0_3.index ⟨(i 0).val * 64 + (i 1).val / 32, hlt⟩ (3 : Fin 5) * 4 + 4
    omega
  | ⟨4, _⟩ =>
    show win0_3.index ⟨(i 0).val * 64 + (i 1).val / 32, hlt⟩ (4 : Fin 5) * 25 ≤ (i 4).val
      ∧ (i 4).val < win0_3.index ⟨(i 0).val * 64 + (i 1).val / 32, hlt⟩ (4 : Fin 5) * 25 + 25
    omega

/-- The output array after the run is the outer product over the arrays as the launch finds them. -/
theorem final (c : Dev nD) : (dats m 0 c).arrAt 3 cfg0.N = target m c :=
  (dats m 0 c).arrAt_eq_of_cover 3 (target m c) (fun t _ => flushed_eq m c t) cover

/-- The run: the result array at the outer product of `x` with the two embedding arrays the launch finds, the
    arguments unchanged. -/
theorem run : θ_run defs (onTc (τ := τ) (main (F := F))) ⟨m, fun _ => 0, ρ⟩ fun r => ∀ c : Dev nD,
      r.2.mem ((c : Thread nD τ).loc main_v19)
        = Cert.Outer.outerProd (m ((c : Thread nD τ).loc main_arg0)) (V m c main_v11) (V m c main_v18)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans
      (congrArg (fun z => Cert.Outer.outerProd z (V m c main_v11) (V m c main_v18)) (V_main_arg0 m c))), (h c).2⟩)
    (run_blocks m ρ)

end Cert.KernelIdeal.Whole

end
-- ==== Proof.Glue.lean ====
/-
  The two embedding arrays the kernel is launched on are the reference's.

  Before its one launch the kernel's program runs, operation for operation, the reference's first forty-five
  host operations: prepend a zero type, look each neighbour's type up along the row, and look both type arrays
  up in the 40 x 5 table. So the array the launch finds in each of the two embedding buffers is the same
  function of the integer and table arguments as the reference's. This is an identity of TERMS: both sides are
  the same composition of the same operations, and the lookups are never opened.
-/
import proofs.«109306_j9380208575078_1_alg».proof.Proof.Gen.KernelIdeal.Frame
import proofs.«109306_j9380208575078_1_alg».proof.Proof.RefRead
import Idealize.ShloMosaic.Lib.StableHlo.Run

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 2000000 in
/-- The row embeddings the launch finds: the table looked up at the (wrapped) types. -/
theorem row_embeddings (c : Dev nD) :
    (V m c main_v11 : S4x2048x5.Idx → Elt F .f32)
      = Cert.ReferenceIdeal.ReadP.val_main_v11 (F := F) (m ((c : Thread nD τ).loc main_arg1)) (m ((c : Thread nD τ).loc main_arg3)) := by
  dsimp only [V]
  simp only [hostOps0, hostOps0_1, hostOps0_2, List.flatten_cons, List.flatten_nil, List.append_nil, List.cons_append,
    List.nil_append]
  after_results_simp
  try simp only [TRef.ofBuf, TRef.toBuf, cast_eq]
  rfl

set_option maxHeartbeats 2000000 in
/-- The neighbour embeddings the launch finds: the table looked up at the neighbours' types. -/
theorem neighbour_embeddings (c : Dev nD) :
    (V m c main_v18 : S4x2048x100x5.Idx → Elt F .f32)
      = Cert.ReferenceIdeal.ReadP.val_main_v18 (F := F) (m ((c : Thread nD τ).loc main_arg1)) (m ((c : Thread nD τ).loc main_arg2))
          (m ((c : Thread nD τ).loc main_arg3)) := by
  dsimp only [V]
  simp only [hostOps0, hostOps0_1, hostOps0_2, List.flatten_cons, List.flatten_nil, List.append_nil, List.cons_append,
    List.nil_append]
  after_results_simp
  try simp only [TRef.ofBuf, TRef.toBuf, cast_eq]
  rfl

end Cert.KernelIdeal.Glue

end
-- ==== Proof.RefOuter.lean ====
/-
  The reference's last eleven operations are the outer product of Spec.lean.

  After the two embedding lookups the reference places `ii` on axes (0, 1, 3) and `jj` on axes (0, 1, 2, 4) of a
  [4, 2048, 100, 5, 5] array, multiplies, flattens the two trailing axes row-major into 25, and multiplies `x`
  (placed on the first four axes) by the result (placed on axes 0, 1, 2, 4). Read at an output index
  (b, n, p, k, e): the flattening sends `e` to the pair (e / 5, e % 5), so the entry is
  `x (b, n, p, k) * (ii (b, n, e / 5) * jj (b, n, p, e % 5))`.
  The lookups themselves stay closed: they enter only as the two arrays they produce.
-/
import proofs.«109306_j9380208575078_1_alg».proof.Proof.RefRead
import proofs.«109306_j9380208575078_1_alg».proof.Proof.Spec

noncomputable section

namespace Cert.ReferenceIdeal.Outer

open Idealize.ShloMosaic Cert.ReferenceIdeal Cert.ReferenceIdeal.ReadP

variable {F : FTy → Type} [FloatOps F]

/-- Composing the broadcasts' coordinate selections: the entry of `x` read is the first four coordinates. -/
theorem x_index (i : S4x2048x100x4x25.Idx) : idx_main_v25 (idx_main_v27 i) = Cert.Outer.xAt i :=
  funext fun a => Fin.ext (by
    match a with
    | ⟨0, _⟩ => rfl
    | ⟨1, _⟩ => rfl
    | ⟨2, _⟩ => rfl
    | ⟨3, _⟩ => rfl)

/-- The row embedding is read at (b, n, e / 5): the row-major position of (b, n, p, e) in [4, 2048, 100, 25] split
    back over [4, 2048, 100, 5, 5] has `e / 5` on its fourth axis. -/
theorem ii_index (i : S4x2048x100x4x25.Idx) :
    idx_main_v19 (idx_main_v21 (idx_main_v24 (idx_main_v26 (idx_main_v28 i)))) = Cert.Outer.iiAt i :=
  funext fun a => Fin.ext (by
    have h0 : (i 0).val < 4 := (i 0).isLt
    have h1 : (i 1).val < 2048 := (i 1).isLt
    have h2 : (i 2).val < 100 := (i 2).isLt
    have h4 : (i 4).val < 25 := (i 4).isLt
    match a with
    | ⟨0, _⟩ => show ((((i 0).val * 2048 + (i 1).val) * 100 + (i 2).val) * 25 + (i 4).val) / 5120000 = (i 0).val; omega
    | ⟨1, _⟩ => show ((((i 0).val * 2048 + (i 1).val) * 100 + (i 2).val) * 25 + (i 4).val) / 2500 % 2048 = (i 1).val; omega
    | ⟨2, _⟩ => show ((((i 0).val * 2048 + (i 1).val) * 100 + (i 2).val) * 25 + (i 4).val) / 5 % 5 = (i 4).val / 5; omega)

/-- The neighbour embedding is read at (b, n, p, e % 5): the same split has `e % 5` on its last axis. -/
theorem jj_index (i : S4x2048x100x4x25.Idx) :
    idx_main_v20 (idx_main_v22 (idx_main_v24 (idx_main_v26 (idx_main_v28 i)))) = Cert.Outer.jjAt i :=
  funext fun a => Fin.ext (by
    have h0 : (i 0).val < 4 := (i 0).isLt
    have h1 : (i 1).val < 2048 := (i 1).isLt
    have h2 : (i 2).val < 100 := (i 2).isLt
    have h4 : (i 4).val < 25 := (i 4).isLt
    match a with
    | ⟨0, _⟩ => show ((((i 0).val * 2048 + (i 1).val) * 100 + (i 2).val) * 25 + (i 4).val) / 5120000 = (i 0).val; omega
    | ⟨1, _⟩ => show ((((i 0).val * 2048 + (i 1).val) * 100 + (i 2).val) * 25 + (i 4).val) / 2500 % 2048 = (i 1).val; omega
    | ⟨2, _⟩ => show ((((i 0).val * 2048 + (i 1).val) * 100 + (i 2).val) * 25 + (i 4).val) / 25 % 100 = (i 2).val; omega
    | ⟨3, _⟩ => show ((((i 0).val * 2048 + (i 1).val) * 100 + (i 2).val) * 25 + (i 4).val) % 5 = (i 4).val % 5; omega)

/-- The reference's result is the outer product of `x` with the two looked-up embedding arrays. -/
theorem result_is_outer (x0 : (⟨S4x2048x100x4, .f32⟩ : BufTy).Contents (Elt F)) (x1 : (⟨S4x2048, .i32⟩ : BufTy).Contents (Elt F))
    (x2 : (⟨S4x2048x100, .i32⟩ : BufTy).Contents (Elt F)) (x3 : (⟨S40x5, .f32⟩ : BufTy).Contents (Elt F)) :
    val_main_v29 (F := F) x0 x1 x2 x3
      = Cert.Outer.outerProd x0 (val_main_v11 (F := F) x1 x3) (val_main_v18 (F := F) x1 x2 x3) := by
  funext i
  rw [val_main_v29_apply, val_main_v27_apply, val_main_v25_apply, val_main_v28_apply, val_main_v26_apply,
    val_main_v24_apply, val_main_v23_apply, val_main_v21_apply, val_main_v19_apply, val_main_v22_apply,
    val_main_v20_apply, x_index, ii_index, jj_index]
  rfl

end Cert.ReferenceIdeal.Outer

end
-- ==== Proof.lean ====
/-
  The kernel and its reference compute one array.

  Both programs first build, by the same host operations, two embedding arrays from the integer arguments and the
  40 x 5 table: `ii` [4, 2048, 5], the table's row for each row's type, and `jj` [4, 2048, 100, 5], the table's row
  for each neighbour's type (a neighbour's type is looked up, along its batch, in the types with a zero prepended).
  Then both form

      out (b, n, p, k, 5 i + j) = x (b, n, p, k) * (ii (b, n, i) * jj (b, n, p, j)),

  the reference by broadcasting to [4, 2048, 100, 5, 5], multiplying and flattening the two trailing axes, the
  kernel block by block over 4 x 64 grid points of 32 rows each, laying the five products `ii (·, ·, i) * jj` side
  by side. The two multiply in the same order, so no law of arithmetic is needed, only the bookkeeping of which
  entry is read where: `e = 5 i + j` read back as `(e / 5, e % 5)`.

  The pieces: Spec.lean states the outer product as one function of `x`, `ii`, `jj`; KernelBlock.lean and
  KernelArray.lean show the kernel's result array is that function of `x` and the two arrays its launch finds;
  Glue.lean that those two arrays are the reference's (the same composition of the same operations, never
  opened); RefOuter.lean that the reference's last eleven operations are that function too. The frames are the
  generated ones; the kernel's idealization rewrote nothing, so there is nothing to preserve.
-/
import proofs.«109306_j9380208575078_1_alg».proof.Defs
import proofs.«109306_j9380208575078_1_alg».proof.Proof.Gen.Kernel
import proofs.«109306_j9380208575078_1_alg».proof.Proof.Gen.Kernel.Skeleton
import proofs.«109306_j9380208575078_1_alg».proof.Proof.Gen.Kernel.Launch
import proofs.«109306_j9380208575078_1_alg».proof.Proof.Gen.Kernel.Points
import proofs.«109306_j9380208575078_1_alg».proof.Proof.Gen.Kernel.Frame
import proofs.«109306_j9380208575078_1_alg».proof.Proof.Gen.KernelIdeal
import proofs.«109306_j9380208575078_1_alg».proof.Proof.Gen.KernelIdeal.Skeleton
import proofs.«109306_j9380208575078_1_alg».proof.Proof.Gen.KernelIdeal.Launch
import proofs.«109306_j9380208575078_1_alg».proof.Proof.Gen.KernelIdeal.Points
import proofs.«109306_j9380208575078_1_alg».proof.Proof.Gen.KernelIdeal.Frame
import proofs.«109306_j9380208575078_1_alg».proof.Proof.Gen.ReferenceIdeal
import proofs.«109306_j9380208575078_1_alg».proof.Proof.Gen.Pre_finite_inputs
import proofs.«109306_j9380208575078_1_alg».proof.Proof.Gen.KernelIdeal.Value
import proofs.«109306_j9380208575078_1_alg».proof.Proof.RefRun
import proofs.«109306_j9380208575078_1_alg».proof.Proof.RefRead
import proofs.«109306_j9380208575078_1_alg».proof.Proof.Spec
import proofs.«109306_j9380208575078_1_alg».proof.Proof.KernelBlock
import proofs.«109306_j9380208575078_1_alg».proof.Proof.KernelArray
import proofs.«109306_j9380208575078_1_alg».proof.Proof.Glue
import proofs.«109306_j9380208575078_1_alg».proof.Proof.RefOuter
import Idealize.ShloMosaic.Adequacy
import Idealize.ShloMosaic.Init

noncomputable section

namespace Cert.Proof

open Idealize.ShloMosaic Idealize.ShloMosaic.TcCoe Idealize.SL.Sem

section KernelResult

open Cert.KernelIdeal

variable {F : FTy → Type} [FloatOps F]
variable (m : (ℓ : Loc nD τ sig) → Buf (Elt F) ℓ) (ρ : Dev nD → PrngReg)

/-- The kernel's run with its result stated over the ARGUMENTS alone: the outer product of `x` with the two
    embedding arrays as the reference's own lookups of the integer and table arguments. -/
theorem kernel_run : θ_run defs (onTc (τ := τ) (main (F := F))) ⟨m, fun _ => 0, ρ⟩ fun r => ∀ c : Dev nD,
      r.2.mem ((c : Thread nD τ).loc main_v19)
        = Cert.Outer.outerProd (m ((c : Thread nD τ).loc main_arg0))
            (Cert.ReferenceIdeal.ReadP.val_main_v11 (F := F) (m ((c : Thread nD τ).loc main_arg1)) (m ((c : Thread nD τ).loc main_arg3)))
            (Cert.ReferenceIdeal.ReadP.val_main_v18 (F := F) (m ((c : Thread nD τ).loc main_arg1)) (m ((c : Thread nD τ).loc main_arg2))
              (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by
      rw [Cert.KernelIdeal.Glue.row_embeddings m c, Cert.KernelIdeal.Glue.neighbour_embeddings m c]), (h c).2⟩)
    (Cert.KernelIdeal.Whole.run m ρ)

end KernelResult

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.RunP.run (F := Ideal) m ρ)

/-- From memories agreeing on the four arguments both programs end with the outer product of `x` with the two
    embedding arrays: the kernel by its blocks, the reference by its broadcasts, the embedding arrays one term. -/
theorem algebraic : Cert.algebraic_KernelIdeal_ReferenceIdeal := by
  intro m ρ m' ρ' _ hagree
  refine ⟨_, kernel_run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v29_eq, Cert.ReferenceIdeal.Outer.result_is_outer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
